-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S256 : Shape := ⟨1, ![256]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel

variable [Facts]

def fn {F : FTy → Type} [FloatOps F] (main_arg0 : FVec F S131072x512 .f32) (main_arg1 : FVec F S131072x512 .f32) (main_arg2 : IVec S256 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  main_v8
-- ==== Kernel.lean ====
abbrev S131072x512 : Shape := ⟨2, ![131072, 512]⟩
abbrev S256 : Shape := ⟨1, ![256]⟩
abbrev S2x1x1 : Shape := ⟨3, ![2, 1, 1]⟩
abbrev S4096x512 : Shape := ⟨2, ![4096, 512]⟩
abbrev S1x1x1 : Shape := ⟨3, ![1, 1, 1]⟩
abbrev S1x1 : Shape := ⟨2, ![1, 1]⟩
abbrev S4096 : Shape := ⟨1, ![4096]⟩
abbrev S4096x1 : Shape := ⟨2, ![4096, 1]⟩
abbrev S1x4096x1 : Shape := ⟨3, ![1, 4096, 1]⟩
abbrev S1 : Shape := ⟨1, ![1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S256, .i32⟩
  | .hbm, ⟨3, _⟩ => ⟨S2x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S4096x512, .f32⟩
  | .local _ .vmem, ⟨3, _⟩ => ⟨S4096x512, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x512_S4096x512_0_0 : ∀ a, (![0, 0] : Fin 2 → Nat) a + S4096x512.size a ≤ S4096x512.size a
  h_S4096x512 : 0 < S4096x512.numel
  reduces_S4096x512_S4096 : S4096x512.Reduces [1] S4096
  shapeCasts_S4096_S4096x1 : S4096.ShapeCasts S4096x1
  broadcasts_S4096x1_S4096x512 : S4096x1.Broadcasts S4096x512
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S131072x512.size a
  hwx0_1 : ∀ i : grid0.Coords, EltTy.bits .f32 = 32 ∨ (Rect.block (s := S131072x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg1) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072x512 : Shape := ⟨2, ![131072, 512]⟩
abbrev S256 : Shape := ⟨1, ![256]⟩
abbrev S_ : Shape := ⟨0, ![]⟩
abbrev S131072 : Shape := ⟨1, ![131072]⟩
abbrev S131072x1 : Shape := ⟨2, ![131072, 1]⟩

abbrev nBuf : Space → Nat
  | .hbm => 34
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S256, .i32⟩
  | .hbm, ⟨3, _⟩ => ⟨S131072x512, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S131072x512, .f32⟩
  | .hbm, ⟨8, _⟩ => ⟨S131072x512, .f32⟩
  | .hbm, ⟨9, _⟩ => ⟨S131072x512, .f32⟩
  | .hbm, ⟨10, _⟩ => ⟨S131072x512, .f32⟩
  | .hbm, ⟨11, _⟩ => ⟨S_, .f32⟩
  | .hbm, ⟨12, _⟩ => ⟨S131072, .f32⟩
  | .hbm, ⟨13, _⟩ => ⟨S131072x1, .f32⟩
  | .hbm, ⟨14, _⟩ => ⟨S131072x1, .f32⟩
  | .hbm, ⟨15, _⟩ => ⟨S_, .f32⟩
  | .hbm, ⟨16, _⟩ => ⟨S131072x1, .f32⟩
  | .hbm, ⟨17, _⟩ => ⟨S131072x1, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S_, .f32⟩
  | .hbm, ⟨22, _⟩ => ⟨S131072, .f32⟩
  | .hbm, ⟨23, _⟩ => ⟨S_, .f32⟩
  | .hbm, ⟨24, _⟩ => ⟨S131072, .f32⟩
  | .hbm, ⟨25, _⟩ => ⟨S131072, .f32⟩
  | .hbm, ⟨26, _⟩ => ⟨S131072, .f32⟩
  | .hbm, ⟨27, _⟩ => ⟨S_, .f32⟩
  | .hbm, ⟨28, _⟩ => ⟨S131072, .f32⟩
  | .hbm, ⟨29, _⟩ => ⟨S131072, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  bcast_S131072_S131072x1_0 : S131072.BroadcastsInDim S131072x1 (![0] : Fin 1 → Fin S131072x1.rank)
  bcast_S131072x1_S131072x512_0_1 : S131072x1.BroadcastsInDim S131072x512 (![0, 1] : Fin 2 → Fin S131072x512.rank)
  bcast_S_S131072x1 : S_.BroadcastsInDim S131072x1 (![] : Fin 0 → Fin S131072x1.rank)
  bcast_S_S131072 : S_.BroadcastsInDim S131072 (![] : Fin 0 → Fin S131072.rank)
  reducesTo_S131072_S_d0 : S131072.ReducesTo [0] S_

variable [Facts₀]

class Facts : Prop extends Facts₀ where

variable [Facts]
-- ==== Proof.RowLoss.lean ====
/-
  The loss of one row, and the regrouping of its total over the rows.

  For a row `p` of predictions and the row `t` of targets beside it, write `s = ∑ p·t` for their inner product,
  `n = p - s·t` for the prediction with its projection on the target taken off, and `q = max (√(∑ n·n)) ε` for the
  length of `n` kept away from zero.  The row's loss is `max (½ + ∑ p·(n / q) - s) 0`, every operation the extended
  reals' own.  Both programs compute this same number for every row; they differ only in how the 131072 losses are
  added up: one sum over all rows, against 32 consecutive blocks of 4096 rows, the blocks added sixteen at a time.
  Addition of extended reals is commutative and associative, so the two totals agree whatever the inputs are:
  nothing here asks an entry to be finite.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.TripletLoss

/-- The loss of the row `p` against the row `t`: with `s = ∑ p·t`, `n = p - s·t` and `q = max (√(∑ n·n)) ε`, the
    number `max (½ + ∑ p·(n / q) - s) 0`.  The two constants are kept as the words both programs print. -/
def rowLoss (p t : Fin 512 → EReal) : EReal :=
  max (Ideal.ofBits .f32 0x3F000000#32
      + ∑ d, p d * Ideal.div (p d - (∑ e, p e * t e) * t d)
          (max (Ideal.sqrt (∑ e, (p e - (∑ f, p f * t f) * t e) * (p e - (∑ f, p f * t f) * t e)))
            (Ideal.ofBits .f32 0x2B8CBCCC#32))
      - ∑ e, p e * t e) 0

/-- The loss of row `R` of the two [131072, 512] arrays. -/
def lossAt (P T : (⟨2, ![131072, 512]⟩ : Shape).Idx → EReal) (R : Fin 131072) : EReal :=
  rowLoss (fun d => P (ix2 R d)) (fun d => T (ix2 R d))

/-- The same, indexed by a natural number (zero past the last row, which no sum below reaches). -/
def lossNat (P T : (⟨2, ![131072, 512]⟩ : Shape).Idx → EReal) (n : ℕ) : EReal :=
  if h : n < 131072 then lossAt P T ⟨n, h⟩ else 0

/-- The total loss of block `j`: rows `4096·j … 4096·j + 4095`. -/
def blockLoss (P T : (⟨2, ![131072, 512]⟩ : Shape).Idx → EReal) (j : ℕ) : EReal :=
  ∑ r ∈ Finset.range 4096, lossNat P T (j * 4096 + r)

/-- A sum over `A·B` consecutive naturals is the sum over `A` consecutive runs of length `B`. -/
theorem sum_range_blocks {M : Type*} [AddCommMonoid M] (f : ℕ → M) (A B : ℕ) :
    ∑ a ∈ Finset.range A, ∑ b ∈ Finset.range B, f (a * B + b) = ∑ n ∈ Finset.range (A * B), f n := by
  induction A with
  | zero => simp
  | succ A ih => rw [Finset.sum_range_succ, ih, Nat.succ_mul, Finset.sum_range_add]

/-- Two groups of sixteen block totals add up to the total over all 131072 rows. -/
theorem total_eq (P T : (⟨2, ![131072, 512]⟩ : Shape).Idx → EReal) :
    ∑ s ∈ Finset.range 2, ∑ k ∈ Finset.range 16, blockLoss P T (s * 16 + k) = ∑ R : Fin 131072, lossAt P T R := by
  rw [sum_range_blocks (fun j => blockLoss P T j) 2 16]
  unfold blockLoss
  rw [sum_range_blocks (fun n => lossNat P T n) (2 * 16) 4096]
  rw [show 2 * 16 * 4096 = 131072 from rfl, ← Fin.sum_univ_eq_sum_range]
  refine Finset.sum_congr rfl fun R _ => ?_
  unfold lossNat
  rw [dif_pos R.isLt]

end Cert.TripletLoss

end
-- ==== Proof.RefSide.lean ====
/-
  The reference program read at the ideal instance: its result is the total of the row losses divided by the
  number of rows.

  The reference forms, for all 131072 rows at once, the inner product of each row of predictions with its row of targets,
  the residual, its guarded length, and the row's loss; then one sum over all the rows and one division by 131072.
  Read at row `R`, the loss it computes is the specification's `rowLoss` of the two rows: the host's sums start from
  a zero that adds nothing, and its square root and quotient are the extended reals' own.
-/
import proofs.«140364_j77464030151303_1_alg».proof.Proof.Gen.ReferenceIdeal.Run
import proofs.«140364_j77464030151303_1_alg».proof.Proof.Gen.ReferenceIdeal.Read
import proofs.«140364_j77464030151303_1_alg».proof.Proof.RowLoss
import Idealize.ShloMosaic.Lib.ValueIdx
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Read Cert.TripletLoss

variable (x0 x1 : (⟨S131072x512, .f32⟩ : BufTy).Contents (Elt Ideal))

/-! ## Where each stage reads its operand -/

theorem row_idx (R : Fin 131072) (k : Fin 512) : idx_main_v1 (ix1 R) k = ix2 R k :=
  funext fun a => by match a with | ⟨0, _⟩ => rfl | ⟨1, _⟩ => rfl
theorem row_idx' (R : Fin 131072) (k : Fin 512) : idx_main_v7 (ix1 R) k = ix2 R k :=
  funext fun a => by match a with | ⟨0, _⟩ => rfl | ⟨1, _⟩ => rfl
theorem row_idx'' (R : Fin 131072) (k : Fin 512) : idx_main_v15 (ix1 R) k = ix2 R k :=
  funext fun a => by match a with | ⟨0, _⟩ => rfl | ⟨1, _⟩ => rfl
theorem col_idx (R : Fin 131072) (z : Fin 1) : idx_main_v2 (ix2 R z) = ix1 R :=
  funext fun a => by match a with | ⟨0, _⟩ => rfl
theorem col_idx' (R : Fin 131072) (z : Fin 1) : idx_main_v8 (ix2 R z) = ix1 R :=
  funext fun a => by match a with | ⟨0, _⟩ => rfl
theorem spread_idx (R : Fin 131072) (d : Fin 512) : idx_main_v3 (ix2 R d) = ix2 R (0 : Fin 1) :=
  funext fun a => by match a with | ⟨0, _⟩ => rfl | ⟨1, _⟩ => rfl
theorem spread_idx' (R : Fin 131072) (d : Fin 512) : idx_main_v12 (ix2 R d) = ix2 R (0 : Fin 1) :=
  funext fun a => by match a with | ⟨0, _⟩ => rfl | ⟨1, _⟩ => rfl

/-! ## The stages at row `R` -/

/-- The inner product of row `R` of the predictions (`x1`) with row `R` of the targets (`x0`). -/
theorem inner_apply (R : Fin 131072) :
    val_main_v1 (F := Ideal) x0 x1 (ix1 R) = ∑ e : Fin 512, x1 (ix2 R e) * x0 (ix2 R e) := by
  rw [val_main_v1_apply]
  simp only [row_idx, val_main_v0_apply, val_main_cst_apply, Ideal.mulf_def, Ideal.ofBits_def, Ideal.ofBits_zero_f32, zero_add]

/-- The residual at `(R, d)`. -/
theorem resid_apply (R : Fin 131072) (d : Fin 512) :
    val_main_v5 (F := Ideal) x0 x1 (ix2 R d)
      = x1 (ix2 R d) - (∑ e : Fin 512, x1 (ix2 R e) * x0 (ix2 R e)) * x0 (ix2 R d) := by
  rw [val_main_v5_apply, val_main_v4_apply, val_main_v3_apply, spread_idx, val_main_v2_apply, col_idx, inner_apply]
  rfl

/-- The guarded length of the residual of row `R`. -/
theorem length_apply (R : Fin 131072) (z : Fin 1) :
    val_main_v11 (F := Ideal) x0 x1 (ix2 R z)
      = max (Ideal.sqrt (∑ e : Fin 512, (x1 (ix2 R e) - (∑ f : Fin 512, x1 (ix2 R f) * x0 (ix2 R f)) * x0 (ix2 R e))
            * (x1 (ix2 R e) - (∑ f : Fin 512, x1 (ix2 R f) * x0 (ix2 R f)) * x0 (ix2 R e))))
          (Ideal.ofBits .f32 0x2B8CBCCC#32) := by
  rw [val_main_v11_apply, val_main_v9_apply, val_main_v8_apply, col_idx', val_main_v7_apply, val_main_v10_apply,
    val_main_cst_1_apply, val_main_cst_0_apply]
  simp only [row_idx', val_main_v6_apply, resid_apply, Ideal.mulf_def, Ideal.ofBits_def, Ideal.ofBits_zero_f32, zero_add,
    Ideal.hostUnary_sqrt_def, Ideal.maximumf_def]

/-- The loss the reference computes for row `R` is the specification's. -/
theorem loss_apply (R : Fin 131072) :
    val_main_v20 (F := Ideal) x0 x1 (ix1 R) = lossAt x1 x0 R := by
  unfold lossAt rowLoss
  rw [val_main_v20_apply, val_main_v18_apply, val_main_v17_apply, val_main_v15_apply, val_main_v16_apply, val_main_v19_apply,
    val_main_cst_3_apply, val_main_cst_4_apply, val_main_cst_2_apply, inner_apply]
  simp only [row_idx'', val_main_v14_apply, val_main_v13_apply, val_main_v12_apply, spread_idx', length_apply, resid_apply,
    Ideal.mulf_def, Ideal.addf_def, Ideal.subf_def, Ideal.hostDivf_def, Ideal.maximumf_def, Ideal.ofBits_def,
    Ideal.ofBits_zero_f32, zero_add]

/-- The one coordinate names every index of a rank-1 array. -/
def vecEquiv : Fin 131072 ≃ S131072.Idx where
  toFun R := ix1 R
  invFun j := j 0
  left_inv _ := rfl
  right_inv j := (eq_ix1 j).symm

/-- THE REFERENCE'S RESULT: the total of the 131072 row losses over 131072 (the divisor kept as the printed word). -/
theorem result_eq :
    val_main_v22 (F := Ideal) x0 x1
      = fun _ => Ideal.div (∑ R : Fin 131072, lossAt x1 x0 R) (Ideal.ofBits .f32 0x48000000#32) := by
  have total : ∑ j : S131072.Idx, val_main_v20 (F := Ideal) x0 x1 j = ∑ R : Fin 131072, lossAt x1 x0 R := by
    rw [← Equiv.sum_comp vecEquiv]
    exact Finset.sum_congr rfl fun R _ => loss_apply x0 x1 R
  funext i
  rw [val_main_v22_apply, val_main_v21_apply, val_main_cst_6_apply, val_main_cst_5_apply, total]
  simp only [Ideal.hostDivf_def, Ideal.ofBits_def, Ideal.ofBits_zero_f32, zero_add]

end Cert.ReferenceIdeal.RefValue

end
-- ==== Proof.Pieces.lean ====
/-
  What each case of the body leaves behind, as values.

  The body has three cases over the grid.  At the first point of a group of sixteen it clears the one-entry accumulator
  and then adds the block's total to it; at the points in between it adds the block's total to what the point before
  left; at the last point of the group it does the same and then copies the accumulator's entry to the output block.
  The runs of the three cases leave their stores as lists of pieces; read back, each list is one value: the
  accumulating store's payload, over the cleared accumulator in the first case and over the carried one otherwise,
  and for the output the copy of that payload.
-/
import proofs.«140364_j77464030151303_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- First point of a group: the accumulator is cleared, then the block's total is added to the cleared value. -/
theorem acc_first (c : Dev nD) (i : grid0.Coords) (a2 : Memref sig .tc .vmem S4096x512 .f32) (h2 : a2.IsWhole)
    (a3 : Memref sig .tc .vmem S4096x512 .f32) (h3 : a3.IsWhole) (a4 : Memref sig .tc .vmem S1x1x1 .f32) (h4 : a4.IsWhole)
    (a5 : Memref sig .tc .vmem S1x1 .f32) (h5 : a5.IsWhole) (hc0 : cond0_0 i) (hc1 : ¬cond0_1 i)
    (x0 x1 : Vec F S4096x512 .f32) :
    sout0_A_0 c i a2 h2 a3 h3 a4 h4 a5 h5 hc0 hc1 x0 x1 = k0_pay3 x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) zeros2]
  simp only [View.readAt_eq_ld, h2.read_unread, h3.read_unread, View.ld_unit_zero (S := S4096x512) zeros2,
    View.readCov_unit_zero (S := S1x1) _ zeros2]

/-- A point in between: the block's total is added to what the point before left. -/
theorem acc_middle (c : Dev nD) (i : grid0.Coords) (a2 : Memref sig .tc .vmem S4096x512 .f32) (h2 : a2.IsWhole)
    (a3 : Memref sig .tc .vmem S4096x512 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : ¬cond0_1 i)
    (x0 x1 : Vec F S4096x512 .f32) (xs0 : Vec F S1x1 .f32) :
    sout0_B_0 c i a2 h2 a3 h3 a4 h4 a5 h5 hc0 hc1 x0 x1 xs0 = k0_pay3 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero zeros2]
  simp only [View.readAt_eq_ld, h2.read_unread, h3.read_unread, h5.read_unread, View.ld_unit_zero (S := S4096x512) zeros2,
    View.ld_unit_zero (S := S1x1) zeros2]

/-- Last point of a group: the accumulator as at a point in between, -/
theorem acc_last (c : Dev nD) (i : grid0.Coords) (a2 : Memref sig .tc .vmem S4096x512 .f32) (h2 : a2.IsWhole)
    (a3 : Memref sig .tc .vmem S4096x512 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S4096x512 .f32) (xs0 : Vec F S1x1 .f32) :
    sout0_C_0 c i a2 h2 a3 h3 a4 h4 a5 h5 hc0 hc1 x0 x1 xs0 = k0_pay3 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero zeros2]
  simp only [View.readAt_eq_ld, h2.read_unread, h3.read_unread, h5.read_unread, View.ld_unit_zero (S := S4096x512) zeros2,
    View.ld_unit_zero (S := S1x1) zeros2]

/-- and the output block is the copy of that new accumulator. -/
theorem out_last (c : Dev nD) (i : grid0.Coords) (a2 : Memref sig .tc .vmem S4096x512 .f32) (h2 : a2.IsWhole)
    (a3 : Memref sig .tc .vmem S4096x512 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S4096x512 .f32) (xs0 : Vec F S1x1 .f32) :
    out0_C_2 c i a2 h2 a3 h3 a4 h4 a5 h5 hc0 hc1 x0 x1 xs0 = k0_pay1 (k0_pay3 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero zeros3]
  simp only [View.readAt_eq_ld, h2.read_unread, h3.read_unread, h5.read_unread, View.ld_unit_zero (S := S4096x512) zeros2,
    View.ld_unit_zero (S := S1x1) zeros2, View.readCov_unit_zero (S := S1x1) _ zeros2]

end Cert.KernelIdeal.Pieces

end
-- ==== Proof.BlockValue.lean ====
/-
  What one grid point adds to the running total, over the extended reals.

  At a grid point the body holds a block of 4096 rows of predictions `x0` and the same rows of targets `x1`.  It forms,
  row by row, the inner product `s = ∑ x0·x1` (a sum along the row kept as a column), the residual `n = x0 - s·x1`,
  its guarded length `q = max (√(∑ n·n)) ε`, and the row's loss `max (½ + ∑ x0·(n / q) - s) 0`; then it adds the 4096
  losses up and adds that total to the one-entry accumulator.  Read at an index each of these is the specification's
  `rowLoss` of the two rows, so the new accumulator is the old one plus the sum of the block's row losses.
-/
import proofs.«140364_j77464030151303_1_alg».proof.Proof.Gen.KernelIdeal.Skeleton
import proofs.«140364_j77464030151303_1_alg».proof.Proof.RowLoss
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.BlockValue

open Cert.KernelIdeal Cert.KernelIdeal.Gen Cert.TripletLoss

/-! ## The body's arithmetic, piece by piece -/

/-- The sum along each row, kept as a column. -/
def rowSum (v : FVec Ideal S4096x512 .f32) : FVec Ideal S4096x1 .f32 :=
  shapeCast S4096x1 (multiReduction .add [1] S4096 v 0x00000000#32 reduces_S4096x512_S4096 (.inl rfl) rfl) shapeCasts_S4096_S4096x1

/-- A column repeated along every row. -/
def alongRow (u : FVec Ideal S4096x1 .f32) : FVec Ideal S4096x512 .f32 :=
  broadcastTo S4096x512 u broadcasts_S4096x1_S4096x512

/-- The prediction with its projection on the target taken off. -/
def resid (x0 x1 : FVec Ideal S4096x512 .f32) : FVec Ideal S4096x512 .f32 :=
  subf x0 (mulf (alongRow (rowSum (mulf x0 x1))) x1)

/-- The column of the block's 4096 row losses. -/
def lossCol (x0 x1 : FVec Ideal S4096x512 .f32) : FVec Ideal S4096x1 .f32 :=
  maximumf
    (subf
      (addf (broadcast S4096x1 (Scalar.ofBits .f32 0x3F000000#32))
        (rowSum (mulf x0 (divf (resid x0 x1)
          (alongRow (maximumf (sqrt (rowSum (mulf (resid x0 x1) (resid x0 x1))))
            (broadcast S4096x1 (Scalar.ofBits .f32 0x2B8CBCCC#32))))))))
      (rowSum (mulf x0 x1)))
    (broadcast S4096x1 (Scalar.ofBits .f32 0x00000000#32))

/-- The block's total: the loss column summed over everything. -/
def blockTotal (x0 x1 : FVec Ideal S4096x512 .f32) : Ideal .f32 :=
  extractAt ![0, 0, 0]
    (shapeCast S1x1x1
      (multiReduction .add [1, 2] S1 (shapeCast S1x4096x1 (lossCol x0 x1) shapeCasts_S4096x1_S1x4096x1) 0x00000000#32
        reduces_S1x4096x1_S1 (.inl rfl) rfl)
      shapeCasts_S1_S1x1x1)
    inpos_S1x1x1_p0_0_0

/-- The accumulating store's value is the accumulator plus the block's total, in these words. -/
theorem pay3_form (x0 x1 : FVec Ideal S4096x512 .f32) (acc : FVec Ideal S1x1 .f32) :
    k0_pay3 (F := Ideal) x0 x1 acc
      = shapeCast S1x1 (addf acc (broadcast S1x1 (blockTotal x0 x1))) shapeCasts_S1x1_S1x1 := rfl

/-! ## Each piece read at an index -/

theorem sqrt_apply {s : Shape} (v : FVec Ideal s .f32) (i : s.Idx) : sqrt v i = Ideal.sqrt (v i) := rfl

/-- A row sum kept as a column, at row `r`: the sum of that row's 512 entries. -/
theorem rowSum_apply (v : FVec Ideal S4096x512 .f32) (r : Fin 4096) (z : Fin 1) :
    rowSum v (ix2 r z) = ∑ d : Fin 512, v (ix2 r d) := by
  unfold rowSum
  refine (shapeCast_apply _ shapeCasts_S4096_S4096x1 (ix2 r z) (ix1 r) ?_).trans ?_
  · rw [Shape.rowMajor_val_one, Shape.rowMajor_val_two]
    show r.val = r.val * 1 + z.val
    have := z.isLt; omega
  · refine (Ideal.multiReduction_add_single v 0x00000000#32 reduces_S4096x512_S4096 (.inl rfl) rfl (ix1 r)).trans ?_
    refine Finset.sum_congr rfl fun k _ => congrArg v (funext fun a => Fin.ext ?_)
    match a with
    | ⟨0, _⟩ => rfl
    | ⟨1, _⟩ => rfl

/-- A column repeated along the rows, at `(r, d)`: the column's entry `r`. -/
theorem alongRow_apply (u : FVec Ideal S4096x1 .f32) (r : Fin 4096) (d : Fin 512) :
    alongRow u (ix2 r d) = u (ix2 r (0 : Fin 1)) := by
  unfold alongRow
  refine broadcastTo_apply u broadcasts_S4096x1_S4096x512 (ix2 r d) (ix2 r (0 : Fin 1)) fun ax => ?_
  match ax with
  | ⟨0, _⟩ => rfl
  | ⟨1, _⟩ => rfl

theorem resid_apply (x0 x1 : FVec Ideal S4096x512 .f32) (r : Fin 4096) (d : Fin 512) :
    resid x0 x1 (ix2 r d) = x0 (ix2 r d) - (∑ e : Fin 512, x0 (ix2 r e) * x1 (ix2 r e)) * x1 (ix2 r d) := by
  unfold resid
  rw [subf_apply, mulf_apply, alongRow_apply, rowSum_apply]
  rfl

/-- The loss column at row `r` is the specification's loss of the block's row `r`. -/
theorem lossCol_apply (x0 x1 : FVec Ideal S4096x512 .f32) (r : Fin 4096) (z : Fin 1) :
    lossCol x0 x1 (ix2 r z) = rowLoss (fun d => x0 (ix2 r d)) (fun d => x1 (ix2 r d)) := by
  unfold lossCol rowLoss
  rw [maximumf_apply, subf_apply, addf_apply, broadcast_apply, broadcast_apply, rowSum_apply, rowSum_apply]
  simp only [mulf_apply, divf_apply, alongRow_apply, maximumf_apply, sqrt_apply, rowSum_apply, resid_apply, broadcast_apply,
    Ideal.ofBits_def, Ideal.ofBits_zero_f32]

/-- The one coordinate of the middle axis names every index of a [1, 4096, 1] array. -/
def midEquiv : Fin 4096 ≃ S1x4096x1.Idx where
  toFun r := ix3 (0 : Fin 1) r (0 : Fin 1)
  invFun i := i 1
  left_inv _ := rfl
  right_inv i := by
    funext a
    match a with
    | ⟨0, _⟩ => exact Fin.ext (by have h := (i 0).isLt; change (i 0).val < 1 at h; show 0 = (i 0).val; omega)
    | ⟨1, _⟩ => rfl
    | ⟨2, _⟩ => exact Fin.ext (by have h := (i 2).isLt; change (i 2).val < 1 at h; show 0 = (i 2).val; omega)

/-- The block's total is the sum of its 4096 row losses. -/
theorem blockTotal_eq (x0 x1 : FVec Ideal S4096x512 .f32) :
    blockTotal x0 x1 = ∑ r : Fin 4096, rowLoss (fun d => x0 (ix2 r d)) (fun d => x1 (ix2 r d)) := by
  unfold blockTotal extractAt
  refine (shapeCast_apply _ shapeCasts_S1_S1x1x1 _ (ix1 (0 : Fin 1)) ?_).trans ?_
  · rw [Shape.rowMajor_val_one, Shape.rowMajor_val_three]
    rfl
  · refine (Ideal.multiReduction_add_total _ 0x00000000#32 reduces_S1x4096x1_S1 (fun b => by
      match b with
      | ⟨0, _⟩ => rfl) (.inl rfl) rfl (ix1 (0 : Fin 1))).trans ?_
    rw [← Equiv.sum_comp midEquiv]
    refine Finset.sum_congr rfl fun r _ => ?_
    show shapeCast S1x4096x1 (lossCol x0 x1) shapeCasts_S4096x1_S1x4096x1 (ix3 (0 : Fin 1) r (0 : Fin 1)) = _
    rw [shapeCast_ab_1ab_apply, lossCol_apply]

/-- THE STEP: the accumulating store leaves the accumulator plus the sum of the block's row losses. -/
theorem pay3_eq (x0 x1 : FVec Ideal S4096x512 .f32) (acc : FVec Ideal S1x1 .f32) :
    k0_pay3 (F := Ideal) x0 x1 acc
      = fun j => acc j + ∑ r : Fin 4096, rowLoss (fun d => x0 (ix2 r d)) (fun d => x1 (ix2 r d)) := by
  rw [pay3_form, shapeCast_self]
  funext j
  rw [addf_apply, broadcast_apply, blockTotal_eq]

/-- The reset stores zero. -/
theorem pay2_eq : (k0_pay2 (F := Ideal)) = fun _ => (0 : EReal) := by
  funext j
  show shapeCast S1x1 (broadcast S1x1 (Scalar.ofBits (F := Ideal) .f32 0x00000000#32)) shapeCasts_S1x1_S1x1 j = 0
  rw [shapeCast_self, broadcast_apply]
  exact Ideal.ofBits_zero_f32

/-- The final copy moves the accumulator's one entry to the output block's one entry. -/
theorem pay1_apply (v : FVec Ideal S1x1 .f32) (j : S1x1x1.Idx) :
    k0_pay1 (F := Ideal) v j = v (ix2 (0 : Fin 1) (0 : Fin 1)) := by
  unfold k0_pay1
  refine shapeCast_apply v shapeCasts_S1x1_S1x1x1 j (ix2 (0 : Fin 1) (0 : Fin 1)) ?_
  rw [Shape.rowMajor_val_two, Shape.rowMajor_val_three]
  have h0 := (j 0).isLt; have h1 := (j 1).isLt; have h2 := (j 2).isLt
  show 0 * 1 + 0 = ((j 0).val * 1 + (j 1).val) * 1 + (j 2).val
  change (j 0).val < 1 at h0; change (j 1).val < 1 at h1; change (j 2).val < 1 at h2
  omega

end Cert.KernelIdeal.BlockValue

end
-- ==== Proof.KernelValue.lean ====
/-
  The kernel program read at the ideal instance: its result is the total of the row losses divided by the
  number of rows.

  The grid has 32 points in two groups of sixteen.  Point `t` reads block `t` of the predictions and of the targets:
  rows `4096·t … 4096·t + 4095`.  The one-entry accumulator is cleared at the first point of a group and grows by the
  block's total loss at every point, so after point `n` it holds the sum of the block totals of the points of
  `n`'s group up to `n`.  The last point of a group copies it to entry `t / 16` of the two-entry output, and only
  those two points write the output back.  After the region the host adds the two entries and divides by 131072.
  Two groups of sixteen blocks of 4096 rows are all 131072 rows, each once, and addition of extended reals is
  commutative and associative: the result is the total over all rows divided by 131072.
-/
import proofs.«140364_j77464030151303_1_alg».proof.Proof.Gen.KernelIdeal.Frame
import proofs.«140364_j77464030151303_1_alg».proof.Proof.Pieces
import proofs.«140364_j77464030151303_1_alg».proof.Proof.BlockValue
import proofs.«140364_j77464030151303_1_alg».proof.Proof.RowLoss
import Idealize.ShloMosaic.Lib.Pipeline.Value
import Idealize.ShloMosaic.Lib.StableHlo.Run
import Idealize.ShloMosaic.Lib.Tactic
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.TripletLoss

variable (m : (ℓ : Loc nD τ sig) → Buf (Elt Ideal) ℓ) (ρ : Dev nD → PrngReg)

/-! ## The arrays and the blocks -/

/-- The predictions and the targets as the region finds them. -/
abbrev preds (c : Dev nD) : Vec Ideal S131072x512 .f32 := V m c main_arg1
abbrev targs (c : Dev nD) : Vec Ideal S131072x512 .f32 := V m c main_arg0
/-- Their blocks at point `t`. -/
abbrev pblk (c : Dev nD) (t : Fin cfg0.N) : Vec Ideal S4096x512 .f32 := iblk m c 0 t
abbrev tblk (c : Dev nD) (t : Fin cfg0.N) : Vec Ideal S4096x512 .f32 := iblk m c 1 t

/-- Point `t` reads block `t` of both inputs, -/
theorem in_idx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- and its output block is entry `t / 16`. -/
theorem out_idx : ∀ t : Fin cfg0.N, win0_2.index t (0 : Fin 3) = t.val / 16 ∧ win0_2.index t (1 : Fin 3) = 0
    ∧ win0_2.index t (2 : Fin 3) = 0 :=
  (by decide +kernel : ∀ t : Fin grid0.N, win0_2.index t (0 : Fin 3) = t.val / 16 ∧ win0_2.index t (1 : Fin 3) = 0
    ∧ win0_2.index t (2 : Fin 3) = 0)

/-- Row `r` of the predictions' block at point `t` is row `4096·t + r` of the predictions. -/
theorem pblk_apply (c : Dev nD) (t : Fin cfg0.N) (r : Fin 4096) (d : Fin 512) (hR : t.val * 4096 + r.val < 131072) :
    pblk m c t (ix2 r d) = preds m c (ix2 ⟨t.val * 4096 + r.val, hR⟩ d) := by
  obtain ⟨e0, e1, -, -⟩ := in_idx t
  show iblk m c 0 t (ix2 r d) = _
  unfold iblk
  rw [View.read_apply]
  show V m c main_arg1 _ = V m c main_arg1 _
  congr 1
  funext a
  apply Fin.ext
  match a with
  | ⟨0, _⟩ => show win0_0.index t (0 : Fin 2) * 4096 + 1 * r.val = t.val * 4096 + r.val; rw [e0]; omega
  | ⟨1, _⟩ => show win0_0.index t (1 : Fin 2) * 512 + 1 * d.val = d.val; rw [e1]; omega

/-- The same for the targets. -/
theorem tblk_apply (c : Dev nD) (t : Fin cfg0.N) (r : Fin 4096) (d : Fin 512) (hR : t.val * 4096 + r.val < 131072) :
    tblk m c t (ix2 r d) = targs m c (ix2 ⟨t.val * 4096 + r.val, hR⟩ d) := by
  obtain ⟨-, -, e0, e1⟩ := in_idx t
  show iblk m c 1 t (ix2 r d) = _
  unfold iblk
  rw [View.read_apply]
  show V m c main_arg0 _ = V m c main_arg0 _
  congr 1
  funext a
  apply Fin.ext
  match a with
  | ⟨0, _⟩ => show win0_1.index t (0 : Fin 2) * 4096 + 1 * r.val = t.val * 4096 + r.val; rw [e0]; omega
  | ⟨1, _⟩ => show win0_1.index t (1 : Fin 2) * 512 + 1 * d.val = d.val; rw [e1]; omega

/-- So the row losses of point `t`'s blocks add up to block `t`'s total. -/
theorem block_eq (c : Dev nD) (t : Fin cfg0.N) :
    ∑ r : Fin 4096, rowLoss (fun d => pblk m c t (ix2 r d)) (fun d => tblk m c t (ix2 r d))
      = blockLoss (preds m c) (targs m c) t.val := by
  have hN : t.val < 32 := lt_of_lt_of_eq t.isLt (show cfg0.N = 32 from N_0)
  unfold blockLoss
  rw [← Fin.sum_univ_eq_sum_range (fun r => lossNat (preds m c) (targs m c) (t.val * 4096 + r)) 4096]
  refine Finset.sum_congr rfl fun r _ => ?_
  have hR : t.val * 4096 + r.val < 131072 := by have := r.isLt; omega
  unfold lossNat
  rw [dif_pos hR]
  unfold lossAt
  congr 1
  · funext d; exact pblk_apply m c t r d hR
  · funext d; exact tblk_apply m c t r d hR

/-- THE STEP at point `t`: the accumulating store leaves the accumulator plus block `t`'s total. -/
theorem step_val (c : Dev nD) (t : Fin cfg0.N) (acc : Vec Ideal S1x1 .f32) :
    k0_pay3 (F := Ideal) (pblk m c t) (tblk m c t) acc = fun j => acc j + blockLoss (preds m c) (targs m c) t.val :=
  (BlockValue.pay3_eq (pblk m c t) (tblk m c t) acc).trans (funext fun j => congrArg (acc j + ·) (block_eq m c t))

/-! ## The accumulator after each point -/

/-- At the first point of a group the accumulator ends at that block's total. -/
theorem acc_reset (c : Dev nD) (t : Fin cfg0.N) (h0 : t.val % 16 = 0) :
    (outsAt0 m c t.val t.isLt).2 = fun _ => blockLoss (preds m c) (targs m c) t.val := by
  have h1 : ¬t.val % 16 = 15 := by omega
  rw [outsAt0_A m c t h0 h1]
  dsimp only
  refine (Pieces.acc_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (pblk m c t) (tblk m c t)).trans ?_
  refine (step_val m c t _).trans ?_
  rw [BlockValue.pay2_eq]
  funext j
  exact zero_add _

/-- At every other point it grows by that block's total. -/
theorem acc_step (c : Dev nD) (t : Fin cfg0.N) (h0 : ¬t.val % 16 = 0) :
    (outsAt0 m c t.val t.isLt).2
      = fun j => (outsAt0 m c (t.val - 1) (Nat.lt_of_le_of_lt (Nat.sub_le _ _) t.isLt)).2 j
          + blockLoss (preds m c) (targs m c) t.val := by
  by_cases h1 : t.val % 16 = 15
  · rw [outsAt0_C m c t h0 h1]
    dsimp only
    exact (Pieces.acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (pblk m c t) (tblk m c t) _).trans (step_val m c t _)
  · rw [outsAt0_B m c t h0 h1]
    dsimp only
    exact (Pieces.acc_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (pblk m c t) (tblk m c t) _).trans (step_val m c t _)

/-- The accumulator after point `n`: the block totals of `n`'s group, from the group's first point to `n`. -/
def accAfter (c : Dev nD) (n : ℕ) : Vec Ideal S1x1 .f32 :=
  fun _ => ∑ k ∈ Finset.range (n % 16 + 1), blockLoss (preds m c) (targs m c) (n - n % 16 + k)

theorem acc_closed (c : Dev nD) : ∀ (n : ℕ) (hn : n < cfg0.N), (outsAt0 m c n hn).2 = accAfter m c n
  | 0, hn => by
    refine (acc_reset m c ⟨0, hn⟩ rfl).trans ?_
    funext j
    unfold accAfter
    simp
  | n + 1, hn => by
    by_cases h0 : (n + 1) % 16 = 0
    · refine (acc_reset m c ⟨n + 1, hn⟩ h0).trans ?_
      funext j
      unfold accAfter
      show blockLoss _ _ (n + 1) = _
      rw [h0]
      simp
    · refine (acc_step m c ⟨n + 1, hn⟩ h0).trans ?_
      funext j
      have ih := acc_closed c n (Nat.lt_of_succ_lt hn)
      show (outsAt0 m c n _).2 j + blockLoss _ _ (n + 1) = _
      rw [ih]
      unfold accAfter
      have e1 : (n + 1) % 16 = n % 16 + 1 := by omega
      have e2 : n + 1 - (n % 16 + 1) = n - n % 16 := by omega
      have e3 : n - n % 16 + (n % 16 + 1) = n + 1 := by omega
      rw [e1, e2, Finset.sum_range_succ _ (n % 16 + 1), e3]

/-- At the last point of a group the output block is the copy of the accumulator. -/
theorem out_flush (c : Dev nD) (t : Fin cfg0.N) (h1 : t.val % 16 = 15) :
    (outsAt0 m c t.val t.isLt).1 = fun _ => (outsAt0 m c t.val t.isLt).2 (ix2 (0 : Fin 1) (0 : Fin 1)) := by
  have h0 : ¬t.val % 16 = 0 := by omega
  rw [outsAt0_C m c t h0 h1]
  dsimp only
  refine (Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (pblk m c t) (tblk m c t) _).trans ?_
  funext j
  rw [BlockValue.pay1_apply]
  exact congrFun (Pieces.acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (pblk m c t) (tblk m c t) _).symm _

/-! ## The output array after the region -/

/-- Entry `s` of the output: the sixteen block totals of group `s`. -/
def groupSums (c : Dev nD) : Vec Ideal S2x1x1 .f32 :=
  fun i => ∑ k ∈ Finset.range 16, blockLoss (preds m c) (targs m c) ((i 0).val * 16 + k)
/-- The same, as contents of the output array. -/
abbrev groupTotals (c : Dev nD) : Buf (Elt Ideal) ((c : Thread nD τ).loc main_v0) := groupSums m c

/-- What a write-back writes is that entry. -/
theorem flushed_eq (c : Dev nD) (t : Fin cfg0.N) (hf : (cfg0.win 2).flush t = true) :
    (dats m 0 c).flushed 2 t = ((cfg0.win 2).blk t).view.read (Elt Ideal) (groupTotals m c) := by
  have h1 : t.val % 16 = 15 := (flush0_2 t).mp hf
  obtain ⟨e0, -, -⟩ := out_idx t
  show (cfg0.win 2).cut (grid0.coords t) ((dats m 0 c).after 2 t) = _
  rw [after0_2, out_flush m c t h1, acc_closed m c t.val t.isLt]
  funext y
  rw [View.read_apply]
  have hy : (y 0).val < 1 := (y 0).isLt
  show accAfter m c t.val (ix2 (0 : Fin 1) (0 : Fin 1)) = groupSums m c (((cfg0.win 2).blk t).view.emb y)
  unfold accAfter groupSums
  show ∑ k ∈ Finset.range (t.val % 16 + 1), blockLoss (preds m c) (targs m c) (t.val - t.val % 16 + k)
    = ∑ k ∈ Finset.range 16, blockLoss (preds m c) (targs m c) ((win0_2.index t (0 : Fin 3) * 1 + 1 * (y 0).val) * 16 + k)
  rw [h1, e0]
  refine Finset.sum_congr rfl fun k _ => congrArg _ ?_
  omega

/-- An index of the output is in point `t`'s block iff each coordinate is in the block's range. -/
theorem mem_blk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v0).slice (win0_2.rect t)).set ↔ _
  rw [View.set_slice_whole, Rect.mem_set_unit]
  exact Iff.rfl

/-- Entry `s` is written back by the last point of group `s`. -/
theorem covered (i : S2x1x1.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hN : cfg0.N = 32 := N_0
  have ht : (i 0).val * 16 + 15 < cfg0.N := by rw [hN]; omega
  obtain ⟨e0, e1, e2⟩ := out_idx ⟨(i 0).val * 16 + 15, ht⟩
  refine ⟨⟨(i 0).val * 16 + 15, ht⟩, (flush0_2 _).mpr (by show ((i 0).val * 16 + 15) % 16 = 15; omega), ?_⟩
  rw [mem_blk]
  intro a
  match a with
  | ⟨0, _⟩ =>
    show win0_2.index ⟨(i 0).val * 16 + 15, ht⟩ (0 : Fin 3) * 1 ≤ (i 0).val
      ∧ (i 0).val < win0_2.index ⟨(i 0).val * 16 + 15, ht⟩ (0 : Fin 3) * 1 + 1
    rw [e0]
    show ((i 0).val * 16 + 15) / 16 * 1 ≤ (i 0).val ∧ (i 0).val < ((i 0).val * 16 + 15) / 16 * 1 + 1
    omega
  | ⟨1, _⟩ =>
    show win0_2.index ⟨(i 0).val * 16 + 15, ht⟩ (1 : Fin 3) * 1 ≤ (i 1).val
      ∧ (i 1).val < win0_2.index ⟨(i 0).val * 16 + 15, ht⟩ (1 : Fin 3) * 1 + 1
    rw [e1]; omega
  | ⟨2, _⟩ =>
    show win0_2.index ⟨(i 0).val * 16 + 15, ht⟩ (2 : Fin 3) * 1 ≤ (i 2).val
      ∧ (i 2).val < win0_2.index ⟨(i 0).val * 16 + 15, ht⟩ (2 : Fin 3) * 1 + 1
    rw [e2]; omega

/-- So the output array ends holding the two groups' totals. -/
theorem final_out (c : Dev nD) : (dats m 0 c).arrAt 2 cfg0.N = groupTotals m c :=
  (dats m 0 c).arrAt_eq_of_cover 2 (groupTotals m c) (flushed_eq m c) covered

/-! ## The host's two operations after the region, and the run -/

/-- The first coordinate names every index of a [2, 1, 1] array. -/
def grpEquiv : Fin 2 ≃ S2x1x1.Idx where
  toFun s := ix3 s (0 : Fin 1) (0 : Fin 1)
  invFun i := i 0
  left_inv _ := rfl
  right_inv i := by
    funext a
    match a with
    | ⟨0, _⟩ => rfl
    | ⟨1, _⟩ => exact Fin.ext (by have h := (i 1).isLt; change (i 1).val < 1 at h; show 0 = (i 1).val; omega)
    | ⟨2, _⟩ => exact Fin.ext (by have h := (i 2).isLt; change (i 2).val < 1 at h; show 0 = (i 2).val; omega)

/-- The two groups' totals add up to the total over all rows. -/
theorem groups_total (c : Dev nD) :
    ∑ i : S2x1x1.Idx, groupSums m c i = ∑ R : Fin 131072, lossAt (preds m c) (targs m c) R := by
  rw [← total_eq, ← Fin.sum_univ_eq_sum_range (fun s => ∑ k ∈ Finset.range 16, blockLoss (preds m c) (targs m c) (s * 16 + k)) 2,
    ← Equiv.sum_comp grpEquiv]
  rfl

/-- THE KERNEL'S RESULT: the host adds the output's two entries and divides by 131072 (the divisor kept as the
    printed word). -/
theorem result_eq (c : Dev nD) :
    Pipeline.afterTail₀ cfgs (dats m) 0 (V0 m) [hostOps1] c main_v2
      = fun _ => Ideal.div (∑ R : Fin 131072, lossAt (preds m c) (targs m c) R) (Ideal.ofBits .f32 0x48000000#32) := by
  unfold Pipeline.afterTail₀
  show StableHlo.after hostOps1 _ (Proc.devRef .tc main_v2) = _
  after_results
  have harr : Pipeline.withArrays (cfgs 0).spec c (V0 m c) (fun w => (dats m 0 c).arrAt w (cfgs 0).N) (Proc.devRef .tc main_v0)
      = groupTotals m c :=
    (Pipeline.withArrays_arr spec0 launch0.win.arr_inj c _ _ 2).trans (final_out m c)
  rw [harr]
  funext i
  show Ideal.div (Ideal.hostReduceAdd reducesTo_S2x1x1_S_d0_1_2 (groupSums m c) (Ideal.ofBits .f32 0x00000000#32) i)
    (Ideal.ofBits .f32 0x48000000#32) = _
  rw [Ideal.hostReduceAdd_total reducesTo_S2x1x1_S_d0_1_2 (fun b => b.elim0) (groupSums m c) _ i, Ideal.ofBits_zero_f32, zero_add,
    groups_total]

/-- The run, read: the result at the mean of the row losses, the arguments unchanged. -/
theorem run : θ_run defs (onTc (τ := τ) (main (F := Ideal))) ⟨m, fun _ => 0, ρ⟩ fun r => ∀ c : Dev nD,
      r.2.mem ((c.tc : Thread nD τ).loc main_v2)
        = (fun _ => Ideal.div (∑ R : Fin 131072, lossAt (m ((c.tc : Thread nD τ).loc main_arg1)) (m ((c.tc : Thread nD τ).loc main_arg0)) R)
            (Ideal.ofBits .f32 0x48000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.KernelValue

end
-- ==== Proof.lean ====
/-
  The certificate's claims, assembled.

  Both programs compute the mean over 131072 rows of one and the same per-row loss (`Cert.TripletLoss.rowLoss`:
  with `s` the inner product of the prediction row and the target row, `n` the prediction less `s` times the
  target, and `q` the length of `n` kept above a small constant, the loss is `max (½ + ∑ p·(n / q) - s) 0`).
  The reference takes one sum over all the rows; the kernel adds the rows up block by block in two groups of sixteen
  blocks of 4096 rows and the host adds the two group totals.  Over the extended reals addition is commutative and
  associative, so the two totals are the same number and so are their quotients by 131072.  No entry has to be
  finite for this: the precondition is not opened.
  The kernel's idealization rewrote nothing, so the fourth claim is trivial; the three frames are the generated
  frame runs, the reference's being its generated run with the result dropped.
-/
import proofs.«140364_j77464030151303_1_alg».proof.Defs
import proofs.«140364_j77464030151303_1_alg».proof.Proof.Gen.Kernel
import proofs.«140364_j77464030151303_1_alg».proof.Proof.Gen.Kernel.Skeleton
import proofs.«140364_j77464030151303_1_alg».proof.Proof.Gen.Kernel.Launch
import proofs.«140364_j77464030151303_1_alg».proof.Proof.Gen.Kernel.Points
import proofs.«140364_j77464030151303_1_alg».proof.Proof.Gen.Kernel.Frame
import proofs.«140364_j77464030151303_1_alg».proof.Proof.Gen.KernelIdeal
import proofs.«140364_j77464030151303_1_alg».proof.Proof.Gen.KernelIdeal.Skeleton
import proofs.«140364_j77464030151303_1_alg».proof.Proof.Gen.KernelIdeal.Launch
import proofs.«140364_j77464030151303_1_alg».proof.Proof.Gen.KernelIdeal.Points
import proofs.«140364_j77464030151303_1_alg».proof.Proof.Gen.KernelIdeal.Frame
import proofs.«140364_j77464030151303_1_alg».proof.Proof.Gen.ReferenceIdeal
import proofs.«140364_j77464030151303_1_alg».proof.Proof.Gen.ReferenceIdeal.Run
import proofs.«140364_j77464030151303_1_alg».proof.Proof.Gen.ReferenceIdeal.Read
import proofs.«140364_j77464030151303_1_alg».proof.Proof.Gen.Pre_finite_inputs
import proofs.«140364_j77464030151303_1_alg».proof.Proof.RowLoss
import proofs.«140364_j77464030151303_1_alg».proof.Proof.RefSide
import proofs.«140364_j77464030151303_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference is a straight line of host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the arguments both programs end with the mean of the row losses of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq (F := Ideal) _ _).trans
    ((Cert.ReferenceIdeal.RefValue.result_eq _ _).trans ?_)
  rw [(hagree c).1, (hagree c).2.1]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
